-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel

variable [Facts]

def fn {F : FTy → Type} [FloatOps F] (main_arg0 : FVec F S8x8192x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  main_v3
-- ==== Kernel.lean ====
abbrev S8x8192x512 : Shape := ⟨3, ![8, 8192, 512]⟩
abbrev S1x2048x512 : Shape := ⟨3, ![1, 2048, 512]⟩
abbrev S1x2048 : Shape := ⟨2, ![1, 2048]⟩
abbrev S1x2048x1 : Shape := ⟨3, ![1, 2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  reduces_S1x2048x512_S1x2048 : S1x2048x512.Reduces [2] S1x2048
  shapeCasts_S1x2048_S1x2048x1 : S1x2048.ShapeCasts S1x2048x1
  broadcasts_S1x2048x1_S1x2048x512 : S1x2048x1.Broadcasts S1x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x8192x512.size a
  hwx0_0 : ∀ i : grid0.Coords, EltTy.bits .f32 = 32 ∨ (Rect.block (s := S8x8192x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x8192x512.size a
  hwx0_1 : ∀ i : grid0.Coords, EltTy.bits .f32 = 32 ∨ (Rect.block (s := S8x8192x512) S1x2048x512.size (cc0_transform_1 i) (hinb0_1 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S_ : Shape := ⟨0, ![]⟩
abbrev S8x8192 : Shape := ⟨2, ![8, 8192]⟩
abbrev S8x8192x1 : Shape := ⟨3, ![8, 8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S_, .f32⟩
  | .hbm, ⟨2, _⟩ => ⟨S8x8192, .f32⟩
  | .hbm, ⟨3, _⟩ => ⟨S8x8192x1, .f32⟩
  | .hbm, ⟨4, _⟩ => ⟨S8x8192x1, .f32⟩
  | .hbm, ⟨5, _⟩ => ⟨S8x8192x512, .f32⟩
  | .hbm, ⟨6, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S8x8192x512_S8x8192_d2 : S8x8192x512.ReducesTo [2] S8x8192
  h_S_ : 0 < S_.numel
  bcast_S8x8192_S8x8192x1_0_1 : S8x8192.BroadcastsInDim S8x8192x1 (![0, 1] : Fin 2 → Fin S8x8192x1.rank)
  bcast_S8x8192x1_S8x8192x512_0_1_2 : S8x8192x1.BroadcastsInDim S8x8192x512 (![0, 1, 2] : Fin 3 → Fin S8x8192x512.rank)

variable [Facts₀]

class Facts : Prop extends Facts₀ where

variable [Facts]
-- ==== Proof.RowCentre.lean ====
/-
  The one function both programs compute, over the extended reals: every entry of an [8, 8192, 512] array less
  the sum of its row, a row being the 512 entries that share the first two coordinates,

      out (b, r, c) = x (b, r, c) + -(Σ k < 512, x (b, r, k)).

  The kernel spells the negated row sum `0 - Σ`, the reference `-(0 + Σ)` (its reduction starts from the
  constant 0): both are `-Σ` on every extended real, infinite sums included, because subtraction there is adding
  the negative and `0` is neutral for `+`. No finiteness of the entries is used anywhere.
-/
import Idealize.ShloMosaic.PureOps.Ideal.Laws
import Idealize.ShloMosaic.Lib.ValueIdx

noncomputable section

open scoped BigOperators

namespace Cert.RowCentre

open Idealize.ShloMosaic Idealize.ShloMosaic.ValueIdx

/-- The arrays' shape: 8 batches of 8192 rows of 512 entries. -/
abbrev Arr : Shape := ⟨3, ![8, 8192, 512]⟩

/-- The sum of row `(b, r)`: its 512 entries along the last axis. -/
def rowSum (x : Arr.Idx → EReal) (b : Fin 8) (r : Fin 8192) : EReal := ∑ k : Fin 512, x (ix3 b r k)

/-- Every entry less the sum of its row. -/
def centred (x : Arr.Idx → EReal) : Arr.Idx → EReal := fun i => x i + -rowSum x (i 0) (i 1)

theorem centred_ix3 (x : Arr.Idx → EReal) (b : Fin 8) (r : Fin 8192) (c : Fin 512) :
    centred x (ix3 b r c) = x (ix3 b r c) + -rowSum x b r := rfl

/-- The kernel's spelling of the negated sum: the f32 zero word, which denotes `0`, minus the sum. -/
theorem zero_sub_eq_neg (s : EReal) : Ideal.ofBits .f32 0x00000000#32 - s = -s := by
  rw [Ideal.ofBits_zero_f32, zero_sub]

/-- The reference's spelling: the negative of the sum started from that zero. -/
theorem neg_zero_add_eq_neg (s : EReal) : -(Ideal.ofBits .f32 0x00000000#32 + s) = -s := by
  rw [Ideal.ofBits_zero_f32, zero_add]

end Cert.RowCentre

end
-- ==== Proof.RefCentre.lean ====
/-
  The reference's result is the row-centred array: `jnp.sum` over the last axis starts from the constant 0 and
  adds the row's 512 entries, the sum is negated and broadcast back along the row, and the argument is added to it.
  Read at an index (b, r, c) that is `x (b, r, c) + -(0 + Σ k, x (b, r, k))`, and `0` is neutral for `+`.
-/
import proofs.«112313_j66949950210077_1_alg».proof.Proof.Gen.ReferenceIdeal.Read
import proofs.«112313_j66949950210077_1_alg».proof.Proof.RowCentre

noncomputable section

open scoped BigOperators

namespace Cert.RowCentre.Ref

open Cert.ReferenceIdeal Cert.ReferenceIdeal.Gen Cert.ReferenceIdeal.Read
open Idealize.ShloMosaic Idealize.ShloMosaic.ValueIdx

/-- The two broadcasts and the reduction's lift, composed, send the result index (b, r, c) and the summation
    index k to the argument's index (b, r, k). -/
theorem row_index (i : S8x8192x512.Idx) (k : Fin 512) :
    idx_main_v0 (idx_main_v1 (idx_main_v3 i)) k = ix3 (i 0) (i 1) k :=
  funext fun a => Fin.ext (by match a with | ⟨0, _⟩ => rfl | ⟨1, _⟩ => rfl | ⟨2, _⟩ => rfl)

/-- The reference's last stage, at `Ideal`, is `centred` of the argument. -/
theorem result_eq (x : (⟨S8x8192x512, .f32⟩ : BufTy).Contents (Elt Ideal)) :
    val_main_v4 (F := Ideal) x = centred x := by
  funext i
  rw [val_main_v4_apply, val_main_v3_apply, val_main_v2_apply, val_main_v1_apply, val_main_v0_apply, val_main_cst_apply]
  show x i + -(Ideal.ofBits .f32 0x00000000#32 + ∑ k : Fin 512, x (idx_main_v0 (idx_main_v1 (idx_main_v3 i)) k))
    = x i + -rowSum x (i 0) (i 1)
  rw [neg_zero_add_eq_neg]
  exact congrArg (fun s => x i + -s) (Finset.sum_congr rfl fun k _ => congrArg x (row_index i k))

end Cert.RowCentre.Ref

end
-- ==== Proof.KernelCentre.lean ====
/-
  The kernel's result array is the row-centred argument.

  The grid has 8 × 4 points; point (b, s) stages the [1, 2048, 512] block of the argument whose rows are
  2048·s … 2048·s + 2047 of batch b, and writes back the block of the result at the same place. A block holds
  whole rows (all 512 entries of each), so the body's lane reduction over the block's last axis is the row sum of
  the array's row, and what a point writes back is the block of `centred x` at that point. The 32 blocks tile the
  array, so after the run the array is `centred x` everywhere.
-/
import proofs.«112313_j66949950210077_1_alg».proof.Proof.Gen.KernelIdeal.Value
import proofs.«112313_j66949950210077_1_alg».proof.Proof.RowCentre
import Idealize.ShloMosaic.Lib.Pipeline.Value
import Idealize.ShloMosaic.PureOps.Ideal.Laws

set_option maxRecDepth 16384

noncomputable section

open scoped BigOperators

namespace Cert.RowCentre.Kern

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

/-! ## One block -/

/-- The body's one load and one store go through the whole staging buffer: the rectangle's offset is zero. -/
theorem origin : (![0, 0, 0] : Fin 3 → Nat) = fun _ => 0 := funext fun a => by fin_cases a <;> rfl

/-- The body's lane reduction, at row `r` of the block, is the sum of that row's 512 entries. -/
theorem lane_sum (P : Vec Ideal S1x2048x512 .f32) (z : Fin 1) (r : Fin 2048) :
    multiReduction (F := Ideal) .add [2] S1x2048 P 0x00000000#32 reduces_S1x2048x512_S1x2048 (.inl rfl) rfl (ix2 z r)
      = ∑ k : Fin 512, P (ix3 z r k) := by
  refine (Ideal.multiReduction_add_single P 0x00000000#32 reduces_S1x2048x512_S1x2048 (.inl rfl) rfl (ix2 z r)).trans ?_
  refine Finset.sum_congr rfl fun k _ => congrArg P (funext fun a => Fin.ext ?_)
  match a with
  | ⟨0, _⟩ => rfl
  | ⟨1, _⟩ => rfl
  | ⟨2, _⟩ => rfl

/-- What the body stores, entry by entry: the loaded entry less the sum of its row of the block. -/
theorem stored_at (P : Vec Ideal S1x2048x512 .f32) (z : Fin 1) (r : Fin 2048) (q : Fin 512) :
    k0_pay1 (F := Ideal) P (ix3 z r q) = P (ix3 z r q) + -(∑ k : Fin 512, P (ix3 z r k)) := by
  have hz : z.val = 0 := by omega
  refine (piece1_0 P (ix3 z r q)).trans ?_
  have e0 : ix1_0 (r0_0.idx (ix3 z r q)) = ix3 z r q := by
    funext a; apply Fin.ext
    match a with
    | ⟨0, _⟩ => show 0 = z.val; omega
    | ⟨1, _⟩ => show 0 + 1 * r.val = r.val; omega
    | ⟨2, _⟩ => show 0 + 1 * q.val = q.val; omega
  have e1 : ix1_1 (r0_0.idx (ix3 z r q)) = ix2 z r := by
    funext a; apply Fin.ext
    match a with
    | ⟨0, _⟩ => show 0 = z.val; omega
    | ⟨1, _⟩ => show 0 + 1 * r.val = r.val; omega
  show P (ix1_0 (r0_0.idx (ix3 z r q))) + (Ideal.ofBits .f32 0x00000000#32
      - multiReduction (F := Ideal) .add [2] S1x2048 P 0x00000000#32 reduces_S1x2048x512_S1x2048 (.inl rfl) rfl (ix1_1 (r0_0.idx (ix3 z r q)))) = _
  rw [e0, e1, zero_sub_eq_neg, lane_sum]

/-! ## The blocks in the array -/

/-- The two windows move together over the grid, and the result's block indices range over 8 × 4 × 1. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 7 ∧ win0_1.index t (1 : Fin 3) ≤ 3 ∧ win0_1.index t (2 : Fin 3) = 0 :=
  (by decide +kernel : ∀ t : Fin grid0.N, _)

/-- Every block index of the 8 × 4 × 1 box is some grid point's. -/
theorem index_onto : ∀ (b : Fin 8) (s : Fin 4), ∃ t : Fin cfg0.N, win0_1.index t = ![b.val, s.val, 0] :=
  (by decide +kernel : ∀ (b : Fin 8) (s : Fin 4), ∃ t : Fin grid0.N, win0_1.index t = ![b.val, s.val, 0])

variable (m : (ℓ : Loc nD τ sig) → Buf (Elt Ideal) ℓ) (ρ : Dev nD → PrngReg)

/-- The argument array as the region finds it, and the input window's block at a point, typed by their literal
    shapes. -/
abbrev xarr (c : Dev nD) : Arr.Idx → EReal := V m c main_arg0
abbrev xblk (c : Dev nD) (t : Fin cfg0.N) : Vec Ideal S1x2048x512 .f32 := iblk m c 0 t

/-- An entry of the input block at point `t` is the argument's entry at the same place of the RESULT's block at
    `t`: batch `index 0`, row `2048 · index 1 + r`, the lane unchanged. -/
theorem block_read (c : Dev nD) (t : Fin cfg0.N) (y : S1x2048x512.Idx) (i : Arr.Idx)
    (h0 : (i 0).val = win0_1.index t (0 : Fin 3) * 1 + 1 * (y 0).val)
    (h1 : (i 1).val = win0_1.index t (1 : Fin 3) * 2048 + 1 * (y 1).val)
    (h2 : (i 2).val = (y 2).val) :
    xblk m c t y = xarr m c i := by
  obtain ⟨e0, e1, e2, -, -, e5⟩ := index_facts t
  show V m c main_arg0 (((cfg0.win 0).blk t).view.emb y) = V m c main_arg0 i
  refine congrArg (V m c main_arg0) (funext fun a => Fin.ext ?_)
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 512 + 1 * (y 2).val = (i 2).val; omega

/-- What grid point `t` writes back is the block of `centred x` at `t`: the input block at `t` is the
    argument read through the same rectangle, and a block's row is a whole row of the array. -/
theorem flushed_eq (c : Dev nD) (t : Fin cfg0.N) :
    (dats m 0 c).flushed 1 t = ((cfg0.win 1).blk t).view.read (Elt Ideal) (centred (xarr m c)) := by
  rw [flushed1]
  unfold out0_1
  rw [View.canon_unit_zero origin]
  simp only [View.ld_unit_zero (S := S1x2048x512) origin]
  obtain ⟨-, -, -, -, -, e5⟩ := index_facts t
  funext j
  obtain ⟨z, r, q, rfl⟩ : ∃ (z : Fin 1) (r : Fin 2048) (q : Fin 512), j = ix3 z r q := ⟨j 0, j 1, j 2, eq_ix3 j⟩
  refine (stored_at (xblk m c t) z r q).trans ?_
  show xblk m c t (ix3 z r q) + -(∑ k : Fin 512, xblk m c t (ix3 z r k))
    = xarr m c (((cfg0.win 1).blk t).view.emb (ix3 z r q))
      + -(∑ k : Fin 512, xarr m c (ix3 ((((cfg0.win 1).blk t).view.emb (ix3 z r q)) 0) ((((cfg0.win 1).blk t).view.emb (ix3 z r q)) 1) k))
  refine congrArg₂ (fun a s => a + -s) ?_ (Finset.sum_congr rfl fun k _ => ?_)
  · exact block_read m c t _ _ rfl rfl (by show win0_1.index t (2 : Fin 3) * 512 + 1 * q.val = q.val; omega)
  · exact block_read m c t _ _ rfl rfl rfl

/-! ## The blocks tile the array -/

/-- An index of the array lies in point `t`'s block iff, axis by axis, its coordinate lies in the block's range. -/
theorem mem_block (t : Fin cfg0.N) (i : S8x8192x512.Idx) :
    i ∈ ((cfg0.win 1).blk t).view.set ↔ ∀ a : Fin 3, win0_1.index t a * S1x2048x512.size a ≤ (i a).val
      ∧ (i a).val < win0_1.index t a * S1x2048x512.size a + S1x2048x512.size a := by
  show i ∈ ((View.whole main_v0).slice (win0_1.rect t)).set ↔ _
  rw [View.set_slice_whole, Rect.mem_set_unit]
  exact Iff.rfl

/-- Every index of the result lies in the block of the point with batch `i 0` and row tile `i 1 / 2048`. -/
theorem covered (i : S8x8192x512.Idx) :
    ∃ t : Fin cfg0.N, (cfg0.win 1).flush t = true ∧ i ∈ ((cfg0.win 1).blk t).view.set := by
  have h0 : (i 0).val < 8 := (i 0).isLt
  have h1 : (i 1).val < 8192 := (i 1).isLt
  have h2 : (i 2).val < 512 := (i 2).isLt
  obtain ⟨t, ht⟩ := index_onto ⟨(i 0).val, h0⟩ ⟨(i 1).val / 2048, by omega⟩
  have q0 : win0_1.index t (0 : Fin 3) = (i 0).val := congrFun ht 0
  have q1 : win0_1.index t (1 : Fin 3) = (i 1).val / 2048 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 2048 ≤ (i 1).val ∧ (i 1).val < win0_1.index t (1 : Fin 3) * 2048 + 2048; omega
  | ⟨2, _⟩ => show win0_1.index t (2 : Fin 3) * 512 ≤ (i 2).val ∧ (i 2).val < win0_1.index t (2 : Fin 3) * 512 + 512; omega

/-- After the run the result array is `centred` of the argument as launched. -/
theorem final (c : Dev nD) :
    (dats m 0 c).arrAt 1 cfg0.N = centred (m ((c : Thread nD τ).loc main_arg0)) :=
  (dats m 0 c).arrAt_eq_of_cover 1 (centred (xarr m c)) (fun t _ => flushed_eq m c t) covered

/-- Every weakly fair execution of the kernel's program ends with the result array at `centred` of the argument
    and the argument unchanged. -/
theorem run : θ_run defs (onTc (τ := τ) (main (F := Ideal))) ⟨m, fun _ => 0, ρ⟩ fun r => ∀ c : Dev nD,
      r.2.mem ((c : Thread nD τ).loc main_v0) = centred (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

end Cert.RowCentre.Kern

end
-- ==== Proof.lean ====
/-
  The kernel subtracts from every entry of an f32[8, 8192, 512] array the sum of its row (the 512 entries along the
  last axis): per grid point it loads a [1, 2048, 512] block, reduces it over the lanes, negates the sums as `0 - Σ`,
  broadcasts them back along the rows and adds the block. The reference is `x + (-jnp.sum(x, axis=-1, keepdims=True))`.
  At the ideal instance both are the one function `centred` of Proof/RowCentre.lean,

      out (b, r, c) = x (b, r, c) + -(Σ k < 512, x (b, r, k)),

  on the extended reals: the kernel's side in Proof/KernelCentre.lean (a block holds whole rows, so a block's lane sum
  is the array's row sum, and the 8 × 4 blocks tile the array), the reference's in Proof/RefCentre.lean (its reduction
  read at an index). The two spellings of the negated sum agree on every extended real, so the precondition (finite
  inputs) is not used. The ideal pass rewrote nothing, so `preserves` is `True`; the three frames are the generated
  frame runs (the reference's is its generated run with the result dropped).
-/
import proofs.«112313_j66949950210077_1_alg».proof.Defs
import proofs.«112313_j66949950210077_1_alg».proof.Proof.Gen.Kernel
import proofs.«112313_j66949950210077_1_alg».proof.Proof.Gen.Kernel.Skeleton
import proofs.«112313_j66949950210077_1_alg».proof.Proof.Gen.Kernel.Launch
import proofs.«112313_j66949950210077_1_alg».proof.Proof.Gen.Kernel.Points
import proofs.«112313_j66949950210077_1_alg».proof.Proof.Gen.Kernel.Frame
import proofs.«112313_j66949950210077_1_alg».proof.Proof.Gen.KernelIdeal
import proofs.«112313_j66949950210077_1_alg».proof.Proof.Gen.KernelIdeal.Skeleton
import proofs.«112313_j66949950210077_1_alg».proof.Proof.Gen.KernelIdeal.Launch
import proofs.«112313_j66949950210077_1_alg».proof.Proof.Gen.KernelIdeal.Points
import proofs.«112313_j66949950210077_1_alg».proof.Proof.Gen.KernelIdeal.Frame
import proofs.«112313_j66949950210077_1_alg».proof.Proof.Gen.ReferenceIdeal
import proofs.«112313_j66949950210077_1_alg».proof.Proof.Gen.KernelIdeal.Value
import proofs.«112313_j66949950210077_1_alg».proof.Proof.Gen.ReferenceIdeal.Run
import proofs.«112313_j66949950210077_1_alg».proof.Proof.Gen.ReferenceIdeal.Read
import proofs.«112313_j66949950210077_1_alg».proof.Proof.Gen.Pre_finite_inputs
import proofs.«112313_j66949950210077_1_alg».proof.Proof.RowCentre
import proofs.«112313_j66949950210077_1_alg».proof.Proof.RefCentre
import proofs.«112313_j66949950210077_1_alg».proof.Proof.KernelCentre
import Idealize.ShloMosaic.Adequacy
import Idealize.ShloMosaic.Init

noncomputable section

namespace Cert.Proof

open Idealize.ShloMosaic Idealize.ShloMosaic.TcCoe Idealize.SL.Sem

/-- The word-level kernel runs and leaves its argument as it found it. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument, both programs end with `centred` of it in their result arrays. -/
theorem algebraic : Cert.algebraic_KernelIdeal_ReferenceIdeal := by
  intro m ρ m' ρ' _ hagree
  refine ⟨fun c => Cert.RowCentre.centred (m ((c.tc : Thread Cert.KernelIdeal.nD Cert.KernelIdeal.τ).loc Cert.KernelIdeal.main_arg0)),
    Cert.RowCentre.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RowCentre.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
